-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S1 : Shape := ⟨1, ![1]⟩
abbrev S1048576 : Shape := ⟨1, ![1048576]⟩
abbrev S4096 : Shape := ⟨1, ![4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_
  bcast_S_S1048576 : S_.BroadcastsInDim S1048576 (![] : Fin 0 → Fin S1048576.rank)
  reducesTo_S1048576_S_d0 : S1048576.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S32x4096 .f32) (main_arg1 : FVec F S4096x4096 .f32) (main_arg2 : FVec F S1 .f32) (main_arg3 : FVec F S1048576 .f32) (main_arg4 : FVec F S4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_arg4 main_v13 main_v16
-- ==== Kernel.lean ====
abbrev S32x4096 : Shape := ⟨2, ![32, 4096]⟩
abbrev S4096x4096 : Shape := ⟨2, ![4096, 4096]⟩
abbrev S1 : Shape := ⟨1, ![1]⟩
abbrev S1048576 : Shape := ⟨1, ![1048576]⟩
abbrev S4096 : Shape := ⟨1, ![4096]⟩
abbrev S4096x256 : Shape := ⟨2, ![4096, 256]⟩
abbrev S1x1 : Shape := ⟨2, ![1, 1]⟩
abbrev S1x4096 : Shape := ⟨2, ![1, 4096]⟩
abbrev S256x4096 : Shape := ⟨2, ![256, 4096]⟩
abbrev S256x256 : Shape := ⟨2, ![256, 256]⟩
abbrev S1x256 : Shape := ⟨2, ![1, 256]⟩
abbrev S32x256 : Shape := ⟨2, ![32, 256]⟩
abbrev S256x256x16 : Shape := ⟨3, ![256, 256, 16]⟩
abbrev S256x256x1 : Shape := ⟨3, ![256, 256, 1]⟩

abbrev nBuf : Space → Nat
  | .hbm => 9
  | .vmem => 10
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S1, .f32⟩
  | .hbm, ⟨3, _⟩ => ⟨S1048576, .f32⟩
  | .hbm, ⟨4, _⟩ => ⟨S4096, .f32⟩
  | .hbm, ⟨5, _⟩ => ⟨S4096x256, .f32⟩
  | .hbm, ⟨6, _⟩ => ⟨S1x1, .f32⟩
  | .hbm, ⟨7, _⟩ => ⟨S1x4096, .f32⟩
  | .hbm, ⟨8, _⟩ => ⟨S32x4096, .f32⟩
  | .local _ .vmem, ⟨0, _⟩ => ⟨S32x4096, .f32⟩
  | .local _ .vmem, ⟨1, _⟩ => ⟨S256x4096, .f32⟩
  | .local _ .vmem, ⟨2, _⟩ => ⟨S256x4096, .f32⟩
  | .local _ .vmem, ⟨3, _⟩ => ⟨S256x256, .f32⟩
  | .local _ .vmem, ⟨4, _⟩ => ⟨S256x256, .f32⟩
  | .local _ .vmem, ⟨5, _⟩ => ⟨S1x1, .f32⟩
  | .local _ .vmem, ⟨6, _⟩ => ⟨S1x256, .f32⟩
  | .local _ .vmem, ⟨7, _⟩ => ⟨S1x256, .f32⟩
  | .local _ .vmem, ⟨8, _⟩ => ⟨S32x256, .f32⟩
  | .local _ .vmem, ⟨9, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1048576_S4096x256 : S1048576.ShapeCasts S4096x256
  shapeCasts_S1_S1x1 : S1.ShapeCasts S1x1
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x4096_S256x256x16 : S256x4096.ShapeCasts S256x256x16
  shapeCasts_S256x256_S256x256x1 : S256x256.ShapeCasts S256x256x1
  broadcasts_S256x256x1_S256x256x16 : S256x256x1.Broadcasts S256x256x16
  shapeCasts_S256x256x16_S256x4096 : S256x256x16.ShapeCasts S256x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x4096.size a
  hwx0_5 : ∀ i : grid0.Coords, EltTy.bits .f32 = 32 ∨ (Rect.block (s := S32x4096) S32x256.size (cc0_transform_5 i) (hinb0_5 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096 : Shape := ⟨2, ![32, 4096]⟩
abbrev S4096x4096 : Shape := ⟨2, ![4096, 4096]⟩
abbrev S1 : Shape := ⟨1, ![1]⟩
abbrev S1048576 : Shape := ⟨1, ![1048576]⟩
abbrev S4096 : Shape := ⟨1, ![4096]⟩
abbrev S1048576x16 : Shape := ⟨2, ![1048576, 16]⟩
abbrev S1048576x1 : Shape := ⟨2, ![1048576, 1]⟩
abbrev S1x1 : Shape := ⟨2, ![1, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S1, .f32⟩
  | .hbm, ⟨3, _⟩ => ⟨S1048576, .f32⟩
  | .hbm, ⟨4, _⟩ => ⟨S4096, .f32⟩
  | .hbm, ⟨5, _⟩ => ⟨S1048576x16, .f32⟩
  | .hbm, ⟨6, _⟩ => ⟨S1048576x1, .f32⟩
  | .hbm, ⟨7, _⟩ => ⟨S1048576x16, .f32⟩
  | .hbm, ⟨8, _⟩ => ⟨S1048576x16, .f32⟩
  | .hbm, ⟨9, _⟩ => ⟨S4096x4096, .f32⟩
  | .hbm, ⟨10, _⟩ => ⟨S1x1, .f32⟩
  | .hbm, ⟨11, _⟩ => ⟨S4096x4096, .f32⟩
  | .hbm, ⟨12, _⟩ => ⟨S4096x4096, .f32⟩
  | .hbm, ⟨13, _⟩ => ⟨S32x4096, .f32⟩
  | .hbm, ⟨14, _⟩ => ⟨S1x4096, .f32⟩
  | .hbm, ⟨15, _⟩ => ⟨S32x4096, .f32⟩
  | .hbm, ⟨16, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S4096x4096_S1048576x16 : S4096x4096.ShapeCasts S1048576x16
  bcast_S1048576_S1048576x1_0 : S1048576.BroadcastsInDim S1048576x1 (![0] : Fin 1 → Fin S1048576x1.rank)
  bcast_S1048576x1_S1048576x16_0_1 : S1048576x1.BroadcastsInDim S1048576x16 (![0, 1] : Fin 2 → Fin S1048576x16.rank)
  shapeCasts_S1048576x16_S4096x4096 : S1048576x16.ShapeCasts S4096x4096
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_1_0_0_n_n_wf : DotDims.WF S32x4096 S4096x4096 S32x4096 [1] [1] [0] [0] [] []

variable [Facts₀]

def dot_S32x4096_S4096x4096_S32x4096_1_1_0_0_n_n : DotDims S32x4096 S4096x4096 S32x4096 where
  lhsContracting := [1]
  rhsContracting := [1]
  lhsNonContracting := [0]
  rhsNonContracting := [0]
  lhsBatch := []
  rhsBatch := []
  wf := dot_S32x4096_S4096x4096_S32x4096_1_1_0_0_n_n_wf

class Facts : Prop extends Facts₀ where

variable [Facts]
-- ==== Proof.Spec.lean ====
/-
  The linear layer over a weight stored in groups of sixteen, as ONE function of the five argument arrays.

  The weight matrix `w` has 4096 rows (output features) and 4096 columns (input features). Each row is cut into
  256 consecutive groups of 16 columns, and every group has a scale of its own: the scale of the group that holds
  column `k` of row `o` is entry `o · 256 + k / 16` of the flat list `bs` of 4096 · 256 scales. On top of the
  group scales there is one scale `ts` for the whole matrix. The weight the layer multiplies by is

      weight o k = (w (o, k) / bs (o · 256 + k / 16)) / ts 0,

  the quotient taken on the extended reals in this order (first by the group's scale, then by the matrix's), and the
  layer's result is, for row `b` of the 32 input rows and output feature `o`,

      linear (b, o) = (∑ k, x (b, k) · weight o k) + bias o.

  Nothing here depends on a program: both the kernel's and the reference's value are shown equal to `linear`.
-/
import Idealize.ShloMosaic.PureOps.Ideal
import Idealize.ShloMosaic.Lib.ValueIdx

noncomputable section

namespace Cert.GroupedLinear

open Idealize.ShloMosaic Idealize.ShloMosaic.ValueIdx
open scoped BigOperators

/-- The place, in the flat list of group scales, of the scale of the group of sixteen that holds column `k` of row `o`:
    row `o` owns the 256 consecutive places from `o · 256` on, one per group of its columns. -/
abbrev scaleAt (o k : Fin 4096) : Fin 1048576 :=
  ⟨o.val * 256 + k.val / 16, by have ho := o.isLt; have hk := k.isLt; omega⟩

/-- The group of sixteen, among the 256 of a row, that holds column `k`. -/
abbrev groupOf (k : Fin 4096) : Fin 256 := ⟨k.val / 16, by have hk := k.isLt; omega⟩

/-- Entry `(o, k)` of the weight the layer multiplies by: the stored entry divided by its group's scale, then by the
    scale of the whole matrix. -/
def weight (w : (⟨2, ![4096, 4096]⟩ : Shape).Idx → EReal) (ts : (⟨1, ![1]⟩ : Shape).Idx → EReal)
    (bs : (⟨1, ![1048576]⟩ : Shape).Idx → EReal) (o k : Fin 4096) : EReal :=
  Ideal.div (Ideal.div (w (ix2 o k)) (bs (ix1 (scaleAt o k)))) (ts (ix1 (0 : Fin 1)))

/-- The layer: each input row against each row of the scaled weight, plus the bias of that output feature. -/
def linear (x : (⟨2, ![32, 4096]⟩ : Shape).Idx → EReal) (w : (⟨2, ![4096, 4096]⟩ : Shape).Idx → EReal)
    (ts : (⟨1, ![1]⟩ : Shape).Idx → EReal) (bs : (⟨1, ![1048576]⟩ : Shape).Idx → EReal)
    (bias : (⟨1, ![4096]⟩ : Shape).Idx → EReal) : (⟨2, ![32, 4096]⟩ : Shape).Idx → EReal :=
  fun i => (∑ k : Fin 4096, x (ix2 (i 0) k) * weight w ts bs (i 1) k) + bias (ix1 (i 1))

end Cert.GroupedLinear

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibKeepdims.lean ====
/-
  Layout operations read at an index by coordinates, for the shapes a row reduction with its reduced axis kept
  produces: an `[a, b]` array given a trailing unit axis, an `[a, b, 1]` array broadcast along that axis to
  `[a, b, c]` (the two together: every entry of row `(i, j)` reads the row's one value), and a `[1, a, b]` array
  broadcast along its leading axis to `[m, a, b]` (every member reads the one matrix). Any sizes, any element type.
-/
import Idealize.ShloMosaic.Lib.ValueIdx
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`: a trailing unit axis does
    not move the row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast along its last axis to `[a, b, c]` reads, at `(i, j, k)`, the operand at
    `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The two together, the column a reduction over the last axis keeps: every entry `(i, j, k)` of the broadcast reads
    the `[a, b]` array at `(i, j)`. -/
theorem keptColumn_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) :=
  (broadcastTo_ab1_abc_apply _ h2 i j k).trans (shapeCast_ab_ab1_apply x h1 i j 0)

/-- A `[1, a, b]` array broadcast along its leading axis to `[m, a, b]` reads, at `(p, i, j)`, the operand's one
    matrix at `(i, j)`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.LibKeepdims
-- ==== Proof.LibSplitAxis.lean ====
/-
  The last axis of a matrix split into groups, and the groups merged back, read at an index by coordinates.

  An `[a, n]` array with `n = b · c` cast to `[a, b, c]` cuts every row into `b` consecutive groups of `c`
  entries: entry `(i, j, r)` of the result is entry `(i, j · c + r)` of the operand. The cast back from
  `[a, b, c]` to `[a, n]` reads, at `(i, k)`, the operand at `(i, k / c, k % c)`. Both leave the row-major
  position where it was; that is all a shape cast asks. A flat `[n]` list with `n = a · b` cast to `[a, b]` reads,
  at `(i, j)`, entry `i · b + j`. Any sizes, any element type.
-/
import Idealize.ShloMosaic.Lib.ValueIdx
import Idealize.ShloMosaic.Lib.Pipeline.Value

namespace Cert.LibSplitAxis

open Idealize.ShloMosaic Idealize.ShloMosaic.ValueIdx

variable {α : Type}

/-- Member `r` of group `j`, among `b` groups of `c`, sits at `j · c + r`, inside `b · c`. -/
theorem group_lt {b c : ℕ} (j : Fin b) (r : Fin c) : j.val * c + r.val < b * c :=
  Nat.lt_of_lt_of_le (Nat.add_lt_add_left r.isLt _) (by rw [← Nat.succ_mul]; exact Nat.mul_le_mul_right c j.isLt)

/-- An `[a, n]` array, `n = b · c`, cast to `[a, b, c]` reads, at `(i, j, r)`, the operand at `(i, j · c + r)`. -/
theorem shapeCast_split_apply {a n b c : ℕ} (hn : n = b * c) (x : (⟨2, ![a, n]⟩ : Shape).Idx → α)
    (h : (⟨2, ![a, n]⟩ : Shape).ShapeCasts ⟨3, ![a, b, c]⟩) (i : Fin a) (j : Fin b) (r : Fin c) :
    shapeCast ⟨3, ![a, b, c]⟩ x h (ix3 i j r) = x (ix2 i ⟨j.val * c + r.val, hn ▸ group_lt j r⟩) :=
  shapeCast_apply x h _ _ (by
    rw [Shape.rowMajor_val_two, Shape.rowMajor_val_three]
    show i.val * n + (j.val * c + r.val) = (i.val * b + j.val) * c + r.val
    rw [hn, Nat.add_mul, Nat.mul_assoc, Nat.add_assoc])

/-- An `[a, b, c]` array cast to `[a, n]`, `n = b · c`, reads, at `(i, k)`, the operand at `(i, k / c, k % c)`. -/
theorem shapeCast_merge_apply {a n b c : ℕ} (hn : n = b * c) (hc : 0 < c) (x : (⟨3, ![a, b, c]⟩ : Shape).Idx → α)
    (h : (⟨3, ![a, b, c]⟩ : Shape).ShapeCasts ⟨2, ![a, n]⟩) (i : Fin a) (k : Fin n) :
    shapeCast ⟨2, ![a, n]⟩ x h (ix2 i k)
      = x (ix3 i ⟨k.val / c, Nat.div_lt_of_lt_mul (by rw [Nat.mul_comm, ← hn]; exact k.isLt)⟩ ⟨k.val % c, Nat.mod_lt _ hc⟩) :=
  shapeCast_apply x h _ _ (by
    rw [Shape.rowMajor_val_two, Shape.rowMajor_val_three]
    show (i.val * b + k.val / c) * c + k.val % c = i.val * n + k.val
    generalize k.val = kv
    rw [hn, Nat.add_mul, Nat.mul_assoc, Nat.add_assoc, Nat.mul_comm (kv / c) c, Nat.div_add_mod])

/-- A flat `[n]` list, `n = a · b`, cast to `[a, b]` reads, at `(i, j)`, entry `i · b + j`. -/
theorem shapeCast_rows_apply {n a b : ℕ} (hn : n = a * b) (x : (⟨1, ![n]⟩ : Shape).Idx → α)
    (h : (⟨1, ![n]⟩ : Shape).ShapeCasts ⟨2, ![a, b]⟩) (i : Fin a) (j : Fin b) :
    shapeCast ⟨2, ![a, b]⟩ x h (ix2 i j) = x (ix1 ⟨i.val * b + j.val, hn ▸ group_lt i j⟩) :=
  shapeCast_apply x h _ _ (by
    rw [Shape.rowMajor_val_one, Shape.rowMajor_val_two]
    rfl)

end Cert.LibSplitAxis
-- ==== Proof.Payload.lean ====
/-
  What the kernel body stores, read at an index.

  At one grid point the body holds a block of 256 weight rows (all 4096 columns), the matching 256 × 256 block of
  group scales (one row of 256 scales per weight row), the matrix scale, all 32 input rows and 256 bias entries.
  It regroups each weight row into 256 groups of 16, divides group `g` of row `q` by scale `(q, g)`, merges the
  groups back, divides by the matrix scale, and contracts the input rows against the rows of the result; the bias row
  is added to every row. Column `k` of a row lies in group `k / 16` at place `k % 16`, and `(k / 16) · 16 + k % 16 = k`,
  so entry `(q, k)` of the scaled block is `(w (q, k) / s (q, k / 16)) / ts`. The changes of float format on the way into
  the product are the identity on extended reals, and the product into a zero accumulator is the plain sum.
-/
import proofs.«102249_j14826227106504_1_alg».proof.Proof.Gen.KernelIdeal.Skeleton
import proofs.«102249_j14826227106504_1_alg».proof.Proof.Spec
import proofs.«102249_j14826227106504_1_alg».proof.Proof.LibDotFormats
import proofs.«102249_j14826227106504_1_alg».proof.Proof.LibKeepdims
import proofs.«102249_j14826227106504_1_alg».proof.Proof.LibSplitAxis
import Idealize.ShloMosaic.Lib.ValueIdx
import Idealize.ShloMosaic.Lib.ValueLayout
import Idealize.ShloMosaic.Lib.Pipeline.Value
import Idealize.ShloMosaic.PureOps.Ideal.Laws

noncomputable section

namespace Cert.GroupedLinear.Body

open Cert.KernelIdeal Cert.KernelIdeal.Gen
open Idealize.ShloMosaic Idealize.ShloMosaic.TcCoe Idealize.ShloMosaic.ValueIdx
open scoped BigOperators

/-- Entry `(q, k)` of the block after the division by the group scales: the rows regrouped into sixteens, each group
    divided by its scale, the groups merged back. -/
theorem grouped_apply (w : FVec Ideal S256x4096 .f32) (s : FVec Ideal S256x256 .f32)
    (h1 : S256x256.ShapeCasts S256x256) (h2 : S256x4096.ShapeCasts S256x256x16) (h3 : S256x256.ShapeCasts S256x256x1)
    (h4 : S256x256x1.Broadcasts S256x256x16) (h5 : S256x256x16.ShapeCasts S256x4096) (q : Fin 256) (k : Fin 4096) :
    shapeCast S256x4096 (divf (shapeCast S256x256x16 w h2)
        (broadcastTo S256x256x16 (shapeCast S256x256x1 (shapeCast S256x256 s h1) h3) h4)) h5 (ix2 q k)
      = Ideal.div (w (ix2 q k)) (s (ix2 q (groupOf k))) := by
  rw [shapeCast_self]
  refine (LibSplitAxis.shapeCast_merge_apply (b := 256) (c := 16) rfl (by decide) _ h5 q k).trans ?_
  rw [divf_apply, LibKeepdims.keptColumn_apply s h3 h4, LibSplitAxis.shapeCast_split_apply (b := 256) (c := 16) rfl w h2]
  refine congrArg (fun j => Ideal.div (w (ix2 q j)) (s (ix2 q (groupOf k)))) (Fin.ext ?_)
  show k.val / 16 * 16 + k.val % 16 = k.val
  omega

/-- The one entry of a `[1, 1]` array, picked by its literal position, is the entry at `(0, 0)`. -/
theorem extract_apply (v : FVec Ideal S1x1 .f32) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-- THE BODY'S STORED VALUE at `(p, q)` of the output block: input row `p` against scaled weight row `q` of the block,
    plus bias entry `q` of the block. -/
theorem pay_apply (v0 : Vec Ideal S256x4096 .f32) (v1 : Vec Ideal S256x256 .f32) (v8 : Vec Ideal S1x1 .f32)
    (v12 : Vec Ideal S32x4096 .f32) (v16 : Vec Ideal S1x256 .f32) (p : Fin 32) (q : Fin 256) :
    k0_pay1 (F := Ideal) v0 v1 v8 v12 v16 (ix2 p q)
      = (∑ k : Fin 4096, v12 (ix2 p k)
            * Ideal.div (Ideal.div (v0 (ix2 q k)) (v1 (ix2 q (groupOf k)))) (v8 (ix2 (0 : Fin 1) (0 : Fin 1))))
        + v16 (ix2 (0 : Fin 1) q) := by
  unfold k0_pay1
  refine (addf_apply _ _ _).trans ?_
  refine congrArg₂ (· + ·) ?_ ?_
  · refine (LibDotFormats.matmul_rows_zero_apply _ rfl rfl rfl rfl rfl rfl none _ _ p q).trans ?_
    refine Finset.sum_congr rfl fun k _ => ?_
    refine congrArg (v12 (ix2 p k) * ·) ?_
    refine (divf_apply _ _ _).trans ?_
    rw [grouped_apply, broadcast_apply, extract_apply]
  · rw [shapeCast_self]
    exact broadcastTo_1b_ab_apply _ _ p q

end Cert.GroupedLinear.Body

end
-- ==== Proof.KernelValue.lean ====
/-
  From the kernel's blocks to its whole result array.

  The grid has 16 points. Point `t` holds all 32 input rows, weight rows `t · 256 … t · 256 + 255` (all columns) with
  their rows of group scales, the matrix scale, and bias entries `t · 256 … t · 256 + 255`; it writes the 32 × 256
  block of result columns `t · 256 … t · 256 + 255`. So local weight row `q` at point `t` is output feature
  `t · 256 + q`, and what the point writes is the restriction to its block of ONE function of the arrays the region
  finds (`regionFn`). The 16 blocks cover every column, hence the whole array ends at that function.
  Three of the arrays the region finds are reshapes made before it: the flat list of group scales as 4096 rows of
  256 (entry `(o, g)` is flat entry `o · 256 + g`), the one matrix scale as a 1 × 1 array, the bias as one row.
  Reading those back, `regionFn` of the region's arrays is `linear` of the arguments.
-/
import proofs.«102249_j14826227106504_1_alg».proof.Proof.Gen.KernelIdeal.Value
import proofs.«102249_j14826227106504_1_alg».proof.Proof.Payload
import Idealize.ShloMosaic.Lib.ValueLayout
import Idealize.ShloMosaic.Lib.StableHlo.Run

noncomputable section

namespace Cert.GroupedLinear.Kernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem origin : (![0, 0] : Fin 2 → Nat) = fun _ => 0 := funext fun a => by fin_cases a <;> rfl

/-- The result as one function of the five arrays the region finds: the inputs, the weight, the group scales laid out
    as one row of 256 per weight row, the matrix scale as a 1 × 1 array, the bias as one row. -/
def regionFn (X : S32x4096.Idx → EReal) (W : S4096x4096.Idx → EReal) (S : S4096x256.Idx → EReal) (T : S1x1.Idx → EReal)
    (B : S1x4096.Idx → EReal) : S32x4096.Idx → EReal :=
  fun i => (∑ k : Fin 4096, X (ix2 (i 0) k)
      * Ideal.div (Ideal.div (W (ix2 (i 1) k)) (S (ix2 (i 1) (groupOf k)))) (T (ix2 (0 : Fin 1) (0 : Fin 1))))
    + B (ix2 (0 : Fin 1) (i 1))

/-- What the body leaves in the output block, at an index, from the five input blocks. -/
theorem out_apply (x0 : Vec Ideal S32x4096 .f32) (x1 : Vec Ideal S256x4096 .f32) (x2 : Vec Ideal S256x256 .f32)
    (x3 : Vec Ideal S1x1 .f32) (x4 : Vec Ideal S1x256 .f32) (y : S32x256.Idx) :
    out0_5 x0 x1 x2 x3 x4 y
      = (∑ k : Fin 4096, x0 (ix2 (y 0) k)
            * Ideal.div (Ideal.div (x1 (ix2 (y 1) k)) (x2 (ix2 (y 1) (groupOf k)))) (x3 (ix2 (0 : Fin 1) (0 : Fin 1))))
        + x4 (ix2 (0 : Fin 1) (y 1)) := by
  unfold out0_5
  rw [View.canon_unit_zero origin]
  simp only [View.ld_unit_zero (S := S256x4096) origin, View.ld_unit_zero (S := S256x256) origin,
    View.ld_unit_zero (S := S1x1) origin, View.ld_unit_zero (S := S32x4096) origin, View.ld_unit_zero (S := S1x256) origin]
  obtain ⟨p, q, rfl⟩ : ∃ (p : Fin 32) (q : Fin 256), y = ix2 p q := ⟨y 0, y 1, eq_ix2 y⟩
  exact Body.pay_apply x1 x2 x3 x0 x4 p q

/-- The printed index maps over the 16 points: the inputs, the matrix scale never move; the weight rows, the scale rows
    and the bias columns move with the output's columns. -/
theorem idx_facts : ∀ t : Fin cfg0.N,
    win0_0.index t (0 : Fin 2) = 0 ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = win0_5.index t (1 : Fin 2)
    ∧ win0_5.index t (0 : Fin 2) = 0 ∧ win0_5.index t (1 : Fin 2) ≤ 15 :=
  (by decide +kernel : ∀ t : Fin grid0.N, _)

/-- Every block of 256 result columns is some point's. -/
theorem idx_onto : ∀ q1 : Fin 16, ∃ t : Fin cfg0.N, win0_5.index t = ![0, q1.val] :=
  (by decide +kernel : ∀ q1 : Fin 16, ∃ t : Fin grid0.N, win0_5.index t = ![0, q1.val])

/-- WHAT POINT `t` WRITES BACK is block `t` of `regionFn` of the arrays the region finds. -/
theorem flushed_eq (c : Dev nD) (t : Fin cfg0.N) :
    (dats m 0 c).flushed 5 t = ((cfg0.win 5).blk t).view.read (Elt Ideal)
      (regionFn (V m c main_arg0) (V m c main_arg1) (V m c main_v0) (V m c main_v1) (V m c main_v2)) := by
  rw [Value.flushed5]
  obtain ⟨e00, e01, e10, e11, e20, e21, e30, e31, e40, e41, e50, e51⟩ := idx_facts t
  funext j
  show out0_5 (iblk m c 0 t) (iblk m c 1 t) (iblk m c 2 t) (iblk m c 3 t) (iblk m c 4 t) j
    = regionFn (V m c main_arg0) (V m c main_arg1) (V m c main_v0) (V m c main_v1) (V m c main_v2) (((cfg0.win 5).blk t).view.emb j)
  refine (out_apply _ _ _ _ _ j).trans ?_
  unfold regionFn
  have hj0 : (j 0).val < 32 := (j 0).isLt
  have hj1 : (j 1).val < 256 := (j 1).isLt
  have hx : ∀ k : Fin 4096, iblk m c 0 t (ix2 (j 0) k) = V m c main_arg0 (ix2 ((((cfg0.win 5).blk t).view.emb j) 0) k) := fun k => by
    show V m c main_arg0 (((cfg0.win 0).blk t).view.emb (ix2 (j 0) k)) = _
    refine congrArg (V m c main_arg0) ?_
    funext a; apply Fin.ext
    match a with
    | ⟨0, _⟩ => show win0_0.index t (0 : Fin 2) * 32 + 1 * (j 0).val = win0_5.index t (0 : Fin 2) * 32 + 1 * (j 0).val; omega
    | ⟨1, _⟩ => show win0_0.index t (1 : Fin 2) * 4096 + 1 * k.val = k.val; omega
  have hw : ∀ k : Fin 4096, iblk m c 1 t (ix2 (j 1) k) = V m c main_arg1 (ix2 ((((cfg0.win 5).blk t).view.emb j) 1) k) := fun k => by
    show V m c main_arg1 (((cfg0.win 1).blk t).view.emb (ix2 (j 1) k)) = _
    refine congrArg (V m c main_arg1) ?_
    funext a; apply Fin.ext
    match a with
    | ⟨0, _⟩ => show win0_1.index t (0 : Fin 2) * 256 + 1 * (j 1).val = win0_5.index t (1 : Fin 2) * 256 + 1 * (j 1).val; omega
    | ⟨1, _⟩ => show win0_1.index t (1 : Fin 2) * 4096 + 1 * k.val = k.val; omega
  have hs : ∀ k : Fin 4096, iblk m c 2 t (ix2 (j 1) (groupOf k)) = V m c main_v0 (ix2 ((((cfg0.win 5).blk t).view.emb j) 1) (groupOf k)) := fun k => by
    show V m c main_v0 (((cfg0.win 2).blk t).view.emb (ix2 (j 1) (groupOf k))) = _
    refine congrArg (V m c main_v0) ?_
    funext a; apply Fin.ext
    match a with
    | ⟨0, _⟩ => show win0_2.index t (0 : Fin 2) * 256 + 1 * (j 1).val = win0_5.index t (1 : Fin 2) * 256 + 1 * (j 1).val; omega
    | ⟨1, _⟩ => show win0_2.index t (1 : Fin 2) * 256 + 1 * (k.val / 16) = k.val / 16; omega
  have ht : iblk m c 3 t (ix2 (0 : Fin 1) (0 : Fin 1)) = V m c main_v1 (ix2 (0 : Fin 1) (0 : Fin 1)) := by
    show V m c main_v1 (((cfg0.win 3).blk t).view.emb (ix2 (0 : Fin 1) (0 : Fin 1))) = _
    refine congrArg (V m c main_v1) ?_
    funext a; apply Fin.ext
    match a with
    | ⟨0, _⟩ => show win0_3.index t (0 : Fin 2) * 1 + 1 * 0 = 0; omega
    | ⟨1, _⟩ => show win0_3.index t (1 : Fin 2) * 1 + 1 * 0 = 0; omega
  have hb : iblk m c 4 t (ix2 (0 : Fin 1) (j 1)) = V m c main_v2 (ix2 (0 : Fin 1) ((((cfg0.win 5).blk t).view.emb j) 1)) := by
    show V m c main_v2 (((cfg0.win 4).blk t).view.emb (ix2 (0 : Fin 1) (j 1))) = _
    refine congrArg (V m c main_v2) ?_
    funext a; apply Fin.ext
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + 1 * (j 1).val; omega
  rw [ht, hb]
  exact congrArg (· + _) (Finset.sum_congr rfl fun k _ => by rw [hx k, hw k, hs k])

/-- An index of the array is in point `t`'s block iff each coordinate is in the block's range on its axis. -/
theorem mem_blk (t : Fin cfg0.N) (i : S32x4096.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v3).slice (win0_5.rect t)).set ↔ _
  rw [View.set_slice_whole, Rect.mem_set_unit]
  exact Iff.rfl

/-- The 16 blocks cover the array: column `o` lies in the block of point `o / 256`. -/
theorem cover (i : S32x4096.Idx) : ∃ t : Fin cfg0.N, (cfg0.win 5).flush t = true ∧ i ∈ ((cfg0.win 5).blk t).view.set := by
  have hi0 : (i 0).val < 32 := (i 0).isLt
  have hi1 : (i 1).val < 4096 := (i 1).isLt
  obtain ⟨t, ht⟩ := idx_onto ⟨(i 1).val / 256, by omega⟩
  have q0 : win0_5.index t (0 : Fin 2) = 0 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 256 ≤ (i 1).val ∧ (i 1).val < win0_5.index t (1 : Fin 2) * 256 + 256; omega

/-- THE ARRAY after the run is `regionFn` of the arrays the region finds. -/
theorem final (c : Dev nD) : (dats m 0 c).arrAt 5 cfg0.N
    = regionFn (V m c main_arg0) (V m c main_arg1) (V m c main_v0) (V m c main_v1) (V m c main_v2) :=
  (dats m 0 c).arrAt_eq_of_cover 5 _ (fun t _ => flushed_eq m c t) cover

/-! ## The three arrays reshaped before the region, read back -/

/-- Row `o`, place `g` of the group scales as the region finds them is flat entry `o · 256 + g`. -/
theorem scales_apply (c : Dev nD) (o : Fin 4096) (g : Fin 256) :
    V m c main_v0 (ix2 o g) = m ((c : Thread nD τ).loc main_arg3) (ix1 ⟨o.val * 256 + g.val, LibSplitAxis.group_lt o g⟩) := by
  have e : (V m c main_v0 : S4096x256.Idx → EReal) = shapeCast S4096x256 (m ((c : Thread nD τ).loc main_arg3)) Facts₀.shapeCasts_S1048576_S4096x256 := by
    dsimp only [V, hostOps0]; after_results; rfl
  rw [e]
  exact LibSplitAxis.shapeCast_rows_apply (a := 4096) (b := 256) rfl _ _ o g

/-- The matrix scale as the region finds it is the argument's one entry. -/
theorem tscale_apply (c : Dev nD) :
    V m c main_v1 (ix2 (0 : Fin 1) (0 : Fin 1)) = m ((c : Thread nD τ).loc main_arg2) (ix1 (0 : Fin 1)) := by
  have e : (V m c main_v1 : S1x1.Idx → EReal) = shapeCast S1x1 (m ((c : Thread nD τ).loc main_arg2)) Facts₀.shapeCasts_S1_S1x1 := by
    dsimp only [V, hostOps0]; after_results; rfl
  rw [e]
  exact shapeCast_a_1a_apply _ _ 0 0

/-- The bias row as the region finds it is the argument, entry by entry. -/
theorem bias_apply (c : Dev nD) (o : Fin 4096) :
    V m c main_v2 (ix2 (0 : Fin 1) o) = m ((c : Thread nD τ).loc main_arg4) (ix1 o) := by
  have e : (V m c main_v2 : S1x4096.Idx → EReal) = shapeCast S1x4096 (m ((c : Thread nD τ).loc main_arg4)) Facts₀.shapeCasts_S4096_S1x4096 := by
    dsimp only [V, hostOps0]; after_results; rfl
  rw [e]
  exact shapeCast_a_1a_apply _ _ 0 o

/-- `regionFn` of the arrays the region finds is `linear` of the arguments. -/
theorem region_eq (c : Dev nD) :
    regionFn (V m c main_arg0) (V m c main_arg1) (V m c main_v0) (V m c main_v1) (V m c main_v2)
      = linear (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  unfold regionFn linear weight
  rw [V_main_arg0, V_main_arg1, tscale_apply, bias_apply m c (i 1)]
  exact congrArg (· + _) (Finset.sum_congr rfl fun k _ => by rw [scales_apply m c (i 1) (groupOf k)])

/-! ## The run, read -/

/-- Every execution of the idealized kernel ends with its result array at `linear` of the arguments, the arguments
    unchanged. -/
theorem run : θ_run defs (onTc (τ := τ) (main (F := Ideal))) ⟨m, fun _ => 0, ρ⟩ fun r => ∀ c : Dev nD,
      r.2.mem ((c : Thread nD τ).loc main_v3)
        = linear (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (region_eq m c)), (h c).2⟩)
    (Value.run_blocks m ρ)

end Cert.GroupedLinear.Kernel

end
-- ==== Proof.RefValue.lean ====
/-
  The reference computes `linear`.

  The reference flattens the weight to rows of sixteen (one row per group), divides row `g` by the `g`-th group scale,
  folds the rows back to the matrix, divides every entry by the one matrix scale, contracts the input rows against
  the rows of that matrix, and adds the bias along the rows. Read at an index, entry `(o, k)` of the matrix sits at
  flat position `o · 4096 + k`, that is in flat row `(o · 4096 + k) / 16 = o · 256 + k / 16`: the place `scaleAt o k`
  of the group's scale. So each step's index map composes to the coordinates `linear` is written in, and the two
  quotients and the sum are the same operations on the extended reals.
-/
import proofs.«102249_j14826227106504_1_alg».proof.Proof.Gen.ReferenceIdeal.Read
import proofs.«102249_j14826227106504_1_alg».proof.Proof.Spec

noncomputable section

namespace Cert.GroupedLinear.Ref

open Cert.ReferenceIdeal Cert.ReferenceIdeal.Gen Cert.ReferenceIdeal.Read
open Idealize.ShloMosaic Idealize.ShloMosaic.TcCoe Idealize.ShloMosaic.ValueIdx
open scoped BigOperators

/-- The left operand of the contraction is read at `(b, k)`. -/
theorem lidx_eq (i : S32x4096.Idx) (k : Fin 4096) : lidx_main_v8 i k = ix2 (i 0) k :=
  funext fun a => Fin.ext (by match a with | ⟨0, _⟩ => rfl | ⟨1, _⟩ => rfl)

/-- Entry `(o, k)` of the matrix, through the fold back from rows of sixteen and the flattening to them, is the stored
    entry `(o, k)`: the two reshapes undo each other. -/
theorem widx_eq (i : S32x4096.Idx) (k : Fin 4096) : idx_main_v0 (idx_main_v4 (ridx_main_v8 i k)) = ix2 (i 1) k :=
  funext fun a => Fin.ext (by
    have ho : (i 1).val < 4096 := (i 1).isLt
    have hk : k.val < 4096 := k.isLt
    match a with
    | ⟨0, _⟩ =>
      show (((i 1).val * 4096 + k.val) / 16 * 16 + ((i 1).val * 4096 + k.val) % 16) / 4096 = (i 1).val
      omega
    | ⟨1, _⟩ =>
      show (((i 1).val * 4096 + k.val) / 16 * 16 + ((i 1).val * 4096 + k.val) % 16) % 4096 = k.val
      omega)

/-- The scale that divides entry `(o, k)` is the one of flat row `(o · 4096 + k) / 16 = o · 256 + k / 16`. -/
theorem sidx_eq (i : S32x4096.Idx) (k : Fin 4096) :
    idx_main_v1 (idx_main_v2 (idx_main_v4 (ridx_main_v8 i k))) = ix1 (scaleAt (i 1) k) :=
  funext fun a => Fin.ext (by
    have ho : (i 1).val < 4096 := (i 1).isLt
    have hk : k.val < 4096 := k.isLt
    match a with
    | ⟨0, _⟩ =>
      show ((i 1).val * 4096 + k.val) / 16 = (i 1).val * 256 + k.val / 16
      omega)

/-- The matrix scale is the one entry of its array. -/
theorem tidx_eq (j : S4096x4096.Idx) : idx_main_v5 (idx_main_v6 j) = ix1 (0 : Fin 1) :=
  funext fun a => Fin.ext (by match a with | ⟨0, _⟩ => rfl)

/-- The bias added at `(b, o)` is entry `o`. -/
theorem bidx_eq (i : S32x4096.Idx) : idx_main_v9 (idx_main_v10 i) = ix1 (i 1) :=
  funext fun a => Fin.ext (by match a with | ⟨0, _⟩ => rfl)

/-- Entry `(o, k)` of the matrix the reference contracts against is `weight o k`. -/
theorem scaled_apply (x1 : (⟨S4096x4096, .f32⟩ : BufTy).Contents (Elt Ideal)) (x2 : (⟨S1, .f32⟩ : BufTy).Contents (Elt Ideal))
    (x3 : (⟨S1048576, .f32⟩ : BufTy).Contents (Elt Ideal)) (i : S32x4096.Idx) (k : Fin 4096) :
    val_main_v7 (F := Ideal) x1 x2 x3 (ridx_main_v8 i k) = weight x1 x2 x3 (i 1) k := by
  rw [val_main_v7_apply, val_main_v4_apply, val_main_v3_apply, val_main_v0_apply, val_main_v2_apply, val_main_v1_apply,
    val_main_v6_apply, val_main_v5_apply, widx_eq, sidx_eq, tidx_eq]
  rfl

/-- The reference's result array is `linear` of its arguments. -/
theorem reference_eq (x0 : (⟨S32x4096, .f32⟩ : BufTy).Contents (Elt Ideal)) (x1 : (⟨S4096x4096, .f32⟩ : BufTy).Contents (Elt Ideal))
    (x2 : (⟨S1, .f32⟩ : BufTy).Contents (Elt Ideal)) (x3 : (⟨S1048576, .f32⟩ : BufTy).Contents (Elt Ideal))
    (x4 : (⟨S4096, .f32⟩ : BufTy).Contents (Elt Ideal)) :
    val_main_v11 (F := Ideal) x0 x1 x2 x3 x4 = linear x0 x1 x2 x3 x4 := by
  funext i
  rw [val_main_v11_apply, val_main_v8_apply, val_main_v10_apply, val_main_v9_apply, bidx_eq]
  show (∑ k : Fin 4096, x0 (lidx_main_v8 i k) * val_main_v7 (F := Ideal) x1 x2 x3 (ridx_main_v8 i k)) + x4 (ix1 (i 1)) = _
  unfold linear
  exact congrArg (· + x4 (ix1 (i 1))) (Finset.sum_congr rfl fun k _ => by rw [lidx_eq, scaled_apply]; rfl)

end Cert.GroupedLinear.Ref

end
-- ==== Proof.lean ====
/-
  A linear layer over a weight stored in groups of sixteen with two levels of scales, as a grid kernel, against the
  same layer written with whole-array operations.

  Both programs take 32 input rows `x`, a 4096 × 4096 weight `w`, one scale per group of 16 consecutive entries of a
  weight row (`bs`, a flat list: the group holding column `k` of row `o` has place `o · 256 + k / 16`), one scale `ts`
  for the whole matrix, and a bias, and compute

      result (b, o) = (∑ k, x (b, k) · ((w (o, k) / bs (o · 256 + k / 16)) / ts)) + bias o.

  The reference does it on whole arrays: the weight flattened to rows of sixteen, each row divided by its scale,
  folded back, divided by `ts`, contracted with `x`, the bias added. The kernel walks 16 blocks of 256 output
  features; at each it regroups its 256 weight rows into sixteens, divides by the matching rows of scales and by `ts`,
  narrows both factors to a shorter float format, multiplies into a zero accumulator and adds its piece of the bias.
  On extended reals the narrowing is the identity and the product into zero is the plain sum, and both programs
  take the two quotients in the same order, so no algebraic law is needed beyond matching indices: neither side's
  value uses that the inputs are finite. The idealization rewrote nothing, so the kernel's idealized program is its
  own text read over the extended reals.

  The pieces: `Spec` states the function (`linear`); `RefValue` reads the reference's operations at an index and
  finds `linear`; `Payload` reads the kernel body's stored value at an index of a block; `KernelValue` places each
  point's block in the whole array, shows the 16 blocks cover it, and reads back the three reshapes made before the
  region; here the two runs are set side by side.
-/
import proofs.«102249_j14826227106504_1_alg».proof.Defs
import proofs.«102249_j14826227106504_1_alg».proof.Proof.Gen.Kernel
import proofs.«102249_j14826227106504_1_alg».proof.Proof.Gen.Kernel.Skeleton
import proofs.«102249_j14826227106504_1_alg».proof.Proof.Gen.Kernel.Launch
import proofs.«102249_j14826227106504_1_alg».proof.Proof.Gen.Kernel.Points
import proofs.«102249_j14826227106504_1_alg».proof.Proof.Gen.Kernel.Frame
import proofs.«102249_j14826227106504_1_alg».proof.Proof.Gen.KernelIdeal
import proofs.«102249_j14826227106504_1_alg».proof.Proof.Gen.KernelIdeal.Skeleton
import proofs.«102249_j14826227106504_1_alg».proof.Proof.Gen.KernelIdeal.Launch
import proofs.«102249_j14826227106504_1_alg».proof.Proof.Gen.KernelIdeal.Points
import proofs.«102249_j14826227106504_1_alg».proof.Proof.Gen.KernelIdeal.Frame
import proofs.«102249_j14826227106504_1_alg».proof.Proof.Gen.ReferenceIdeal
import proofs.«102249_j14826227106504_1_alg».proof.Proof.Gen.Pre_finite_inputs
import proofs.«102249_j14826227106504_1_alg».proof.Proof.Gen.KernelIdeal.Value
import proofs.«102249_j14826227106504_1_alg».proof.Proof.Gen.ReferenceIdeal.Run
import proofs.«102249_j14826227106504_1_alg».proof.Proof.Gen.ReferenceIdeal.Read
import proofs.«102249_j14826227106504_1_alg».proof.Proof.KernelValue
import proofs.«102249_j14826227106504_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of whole-array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, the kernel's result array ends at `linear` of its arguments and so does the
    reference's. -/
theorem algebraic : Cert.algebraic_KernelIdeal_ReferenceIdeal := by
  intro m ρ m' ρ' _ hagree
  refine ⟨_, Cert.GroupedLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.GroupedLinear.Ref.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
